-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x64 : Shape := ⟨3, ![16, 1024, 64]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel

variable [Facts]

def fn {F : FTy → Type} [FloatOps F] (main_arg0 : FVec F S16x1024x64 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  main_v3
-- ==== Kernel.lean ====
abbrev S16x1024x64 : Shape := ⟨3, ![16, 1024, 64]⟩
abbrev S16x1x64 : Shape := ⟨3, ![16, 1, 64]⟩
abbrev S16x1x7x64 : Shape := ⟨4, ![16, 1, 7, 64]⟩
abbrev S16x7x64 : Shape := ⟨3, ![16, 7, 64]⟩
abbrev S16x1031x64 : Shape := ⟨3, ![16, 1031, 64]⟩
abbrev S16x1017x8x512 : Shape := ⟨4, ![16, 1017, 8, 512]⟩
abbrev S1x1031x64 : Shape := ⟨3, ![1, 1031, 64]⟩
abbrev S1x1017x8x512 : Shape := ⟨4, ![1, 1017, 8, 512]⟩
abbrev S1x1017x64 : Shape := ⟨3, ![1, 1017, 64]⟩
abbrev S1017x64 : Shape := ⟨2, ![1017, 64]⟩
abbrev S1x1017x1x64 : Shape := ⟨4, ![1, 1017, 1, 64]⟩
abbrev S16x1017x8x8x64 : Shape := ⟨5, ![16, 1017, 8, 8, 64]⟩

abbrev nBuf : Space → Nat
  | .hbm => 7
  | .vmem => 4
  | .smem => 0
  | _ => 0

abbrev bufTy : (tb : Table) → Fin (tcTables nBuf tb) → BufTy
  | .hbm, ⟨0, _⟩ => ⟨S16x1024x64, .f32⟩
  | .hbm, ⟨1, _⟩ => ⟨S16x1x64, .f32⟩
  | .hbm, ⟨2, _⟩ => ⟨S16x1x7x64, .f32⟩
  | .hbm, ⟨3, _⟩ => ⟨S16x7x64, .f32⟩
  | .hbm, ⟨4, _⟩ => ⟨S16x1031x64, .f32⟩
  | .hbm, ⟨5, _⟩ => ⟨S16x1017x8x512, .f32⟩
  | .hbm, ⟨6, _⟩ => ⟨S16x1017x8x8x64, .f32⟩
  | .local _ .vmem, ⟨0, _⟩ => ⟨S1x1031x64, .f32⟩
  | .local _ .vmem, ⟨1, _⟩ => ⟨S1x1031x64, .f32⟩
  | .local _ .vmem, ⟨2, _⟩ => ⟨S1x1017x8x512, .f32⟩
  | .local _ .vmem, ⟨3, _⟩ => ⟨S1x1017x8x512, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1031x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1017x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S16x1024x64_S16x1x64_0_0_0 : S16x1024x64.Slices ![0, 0, 0] S16x1x64
  bcast_S16x1x64_S16x1x7x64_0_1_3 : S16x1x64.BroadcastsInDim S16x1x7x64 (![0, 1, 3] : Fin 3 → Fin S16x1x7x64.rank)
  shapeCasts_S16x1x7x64_S16x7x64 : S16x1x7x64.ShapeCasts S16x7x64
  concatenates_S16x7x64_S16x1024x64_S16x1031x64_d1 : Shape.Concatenates [S16x7x64, S16x1024x64] S16x1031x64 1
  inb_S1x1031x64_S1x1017x64_0_0_0 : ∀ a, (![0, 0, 0] : Fin 3 → Nat) a + S1x1017x64.size a ≤ S1x1031x64.size a
  h_S1x1017x64 : 0 < S1x1017x64.numel
  shapeCasts_S1x1017x64_S1017x64 : S1x1017x64.ShapeCasts S1017x64
  inb_S1x1017x8x512_S1x1017x1x64_0_0_0_0 : ∀ a, (![0, 0, 0, 0] : Fin 4 → Nat) a + S1x1017x1x64.size a ≤ S1x1017x8x512.size a
  h_S1x1017x1x64 : 0 < S1x1017x1x64.numel
  shapeCasts_S1x1017x1x64_S1017x64 : S1x1017x1x64.ShapeCasts S1017x64
  shapeCasts_S1017x64_S1x1017x1x64 : S1017x64.ShapeCasts S1x1017x1x64
  inb_S1x1031x64_S1x1017x64_0_1_0 : ∀ a, (![0, 1, 0] : Fin 3 → Nat) a + S1x1017x64.size a ≤ S1x1031x64.size a
  inb_S1x1017x8x512_S1x1017x1x64_0_0_0_64 : ∀ a, (![0, 0, 0, 64] : Fin 4 → Nat) a + S1x1017x1x64.size a ≤ S1x1017x8x512.size a
  inb_S1x1031x64_S1x1017x64_0_2_0 : ∀ a, (![0, 2, 0] : Fin 3 → Nat) a + S1x1017x64.size a ≤ S1x1031x64.size a
  inb_S1x1017x8x512_S1x1017x1x64_0_0_0_128 : ∀ a, (![0, 0, 0, 128] : Fin 4 → Nat) a + S1x1017x1x64.size a ≤ S1x1017x8x512.size a
  inb_S1x1031x64_S1x1017x64_0_3_0 : ∀ a, (![0, 3, 0] : Fin 3 → Nat) a + S1x1017x64.size a ≤ S1x1031x64.size a
  inb_S1x1017x8x512_S1x1017x1x64_0_0_0_192 : ∀ a, (![0, 0, 0, 192] : Fin 4 → Nat) a + S1x1017x1x64.size a ≤ S1x1017x8x512.size a
  inb_S1x1031x64_S1x1017x64_0_4_0 : ∀ a, (![0, 4, 0] : Fin 3 → Nat) a + S1x1017x64.size a ≤ S1x1031x64.size a
  inb_S1x1017x8x512_S1x1017x1x64_0_0_0_256 : ∀ a, (![0, 0, 0, 256] : Fin 4 → Nat) a + S1x1017x1x64.size a ≤ S1x1017x8x512.size a
  inb_S1x1031x64_S1x1017x64_0_5_0 : ∀ a, (![0, 5, 0] : Fin 3 → Nat) a + S1x1017x64.size a ≤ S1x1031x64.size a
  inb_S1x1017x8x512_S1x1017x1x64_0_0_0_320 : ∀ a, (![0, 0, 0, 320] : Fin 4 → Nat) a + S1x1017x1x64.size a ≤ S1x1017x8x512.size a
  inb_S1x1031x64_S1x1017x64_0_6_0 : ∀ a, (![0, 6, 0] : Fin 3 → Nat) a + S1x1017x64.size a ≤ S1x1031x64.size a
  inb_S1x1017x8x512_S1x1017x1x64_0_0_0_384 : ∀ a, (![0, 0, 0, 384] : Fin 4 → Nat) a + S1x1017x1x64.size a ≤ S1x1017x8x512.size a
  inb_S1x1031x64_S1x1017x64_0_7_0 : ∀ a, (![0, 7, 0] : Fin 3 → Nat) a + S1x1017x64.size a ≤ S1x1031x64.size a
  inb_S1x1017x8x512_S1x1017x1x64_0_0_0_448 : ∀ a, (![0, 0, 0, 448] : Fin 4 → Nat) a + S1x1017x1x64.size a ≤ S1x1017x8x512.size a
  inb_S1x1017x8x512_S1x1017x1x64_0_0_1_0 : ∀ a, (![0, 0, 1, 0] : Fin 4 → Nat) a + S1x1017x1x64.size a ≤ S1x1017x8x512.size a
  inb_S1x1017x8x512_S1x1017x1x64_0_0_1_64 : ∀ a, (![0, 0, 1, 64] : Fin 4 → Nat) a + S1x1017x1x64.size a ≤ S1x1017x8x512.size a
  inb_S1x1017x8x512_S1x1017x1x64_0_0_1_128 : ∀ a, (![0, 0, 1, 128] : Fin 4 → Nat) a + S1x1017x1x64.size a ≤ S1x1017x8x512.size a
  inb_S1x1017x8x512_S1x1017x1x64_0_0_1_192 : ∀ a, (![0, 0, 1, 192] : Fin 4 → Nat) a + S1x1017x1x64.size a ≤ S1x1017x8x512.size a
  inb_S1x1017x8x512_S1x1017x1x64_0_0_1_256 : ∀ a, (![0, 0, 1, 256] : Fin 4 → Nat) a + S1x1017x1x64.size a ≤ S1x1017x8x512.size a
  inb_S1x1017x8x512_S1x1017x1x64_0_0_1_320 : ∀ a, (![0, 0, 1, 320] : Fin 4 → Nat) a + S1x1017x1x64.size a ≤ S1x1017x8x512.size a
  inb_S1x1017x8x512_S1x1017x1x64_0_0_1_384 : ∀ a, (![0, 0, 1, 384] : Fin 4 → Nat) a + S1x1017x1x64.size a ≤ S1x1017x8x512.size a
  inb_S1x1031x64_S1x1017x64_0_8_0 : ∀ a, (![0, 8, 0] : Fin 3 → Nat) a + S1x1017x64.size a ≤ S1x1031x64.size a
  inb_S1x1017x8x512_S1x1017x1x64_0_0_1_448 : ∀ a, (![0, 0, 1, 448] : Fin 4 → Nat) a + S1x1017x1x64.size a ≤ S1x1017x8x512.size a
  inb_S1x1017x8x512_S1x1017x1x64_0_0_2_0 : ∀ a, (![0, 0, 2, 0] : Fin 4 → Nat) a + S1x1017x1x64.size a ≤ S1x1017x8x512.size a
  inb_S1x1017x8x512_S1x1017x1x64_0_0_2_64 : ∀ a, (![0, 0, 2, 64] : Fin 4 → Nat) a + S1x1017x1x64.size a ≤ S1x1017x8x512.size a
  inb_S1x1017x8x512_S1x1017x1x64_0_0_2_128 : ∀ a, (![0, 0, 2, 128] : Fin 4 → Nat) a + S1x1017x1x64.size a ≤ S1x1017x8x512.size a
  inb_S1x1017x8x512_S1x1017x1x64_0_0_2_192 : ∀ a, (![0, 0, 2, 192] : Fin 4 → Nat) a + S1x1017x1x64.size a ≤ S1x1017x8x512.size a
  inb_S1x1017x8x512_S1x1017x1x64_0_0_2_256 : ∀ a, (![0, 0, 2, 256] : Fin 4 → Nat) a + S1x1017x1x64.size a ≤ S1x1017x8x512.size a
  inb_S1x1017x8x512_S1x1017x1x64_0_0_2_320 : ∀ a, (![0, 0, 2, 320] : Fin 4 → Nat) a + S1x1017x1x64.size a ≤ S1x1017x8x512.size a
  inb_S1x1017x8x512_S1x1017x1x64_0_0_2_384 : ∀ a, (![0, 0, 2, 384] : Fin 4 → Nat) a + S1x1017x1x64.size a ≤ S1x1017x8x512.size a
  inb_S1x1031x64_S1x1017x64_0_9_0 : ∀ a, (![0, 9, 0] : Fin 3 → Nat) a + S1x1017x64.size a ≤ S1x1031x64.size a
  inb_S1x1017x8x512_S1x1017x1x64_0_0_2_448 : ∀ a, (![0, 0, 2, 448] : Fin 4 → Nat) a + S1x1017x1x64.size a ≤ S1x1017x8x512.size a
  inb_S1x1017x8x512_S1x1017x1x64_0_0_3_0 : ∀ a, (![0, 0, 3, 0] : Fin 4 → Nat) a + S1x1017x1x64.size a ≤ S1x1017x8x512.size a
  inb_S1x1017x8x512_S1x1017x1x64_0_0_3_64 : ∀ a, (![0, 0, 3, 64] : Fin 4 → Nat) a + S1x1017x1x64.size a ≤ S1x1017x8x512.size a
  inb_S1x1017x8x512_S1x1017x1x64_0_0_3_128 : ∀ a, (![0, 0, 3, 128] : Fin 4 → Nat) a + S1x1017x1x64.size a ≤ S1x1017x8x512.size a
  inb_S1x1017x8x512_S1x1017x1x64_0_0_3_192 : ∀ a, (![0, 0, 3, 192] : Fin 4 → Nat) a + S1x1017x1x64.size a ≤ S1x1017x8x512.size a
  inb_S1x1017x8x512_S1x1017x1x64_0_0_3_256 : ∀ a, (![0, 0, 3, 256] : Fin 4 → Nat) a + S1x1017x1x64.size a ≤ S1x1017x8x512.size a
  inb_S1x1017x8x512_S1x1017x1x64_0_0_3_320 : ∀ a, (![0, 0, 3, 320] : Fin 4 → Nat) a + S1x1017x1x64.size a ≤ S1x1017x8x512.size a
  inb_S1x1017x8x512_S1x1017x1x64_0_0_3_384 : ∀ a, (![0, 0, 3, 384] : Fin 4 → Nat) a + S1x1017x1x64.size a ≤ S1x1017x8x512.size a
  inb_S1x1031x64_S1x1017x64_0_10_0 : ∀ a, (![0, 10, 0] : Fin 3 → Nat) a + S1x1017x64.size a ≤ S1x1031x64.size a
  inb_S1x1017x8x512_S1x1017x1x64_0_0_3_448 : ∀ a, (![0, 0, 3, 448] : Fin 4 → Nat) a + S1x1017x1x64.size a ≤ S1x1017x8x512.size a
  inb_S1x1017x8x512_S1x1017x1x64_0_0_4_0 : ∀ a, (![0, 0, 4, 0] : Fin 4 → Nat) a + S1x1017x1x64.size a ≤ S1x1017x8x512.size a
  inb_S1x1017x8x512_S1x1017x1x64_0_0_4_64 : ∀ a, (![0, 0, 4, 64] : Fin 4 → Nat) a + S1x1017x1x64.size a ≤ S1x1017x8x512.size a
  inb_S1x1017x8x512_S1x1017x1x64_0_0_4_128 : ∀ a, (![0, 0, 4, 128] : Fin 4 → Nat) a + S1x1017x1x64.size a ≤ S1x1017x8x512.size a
  inb_S1x1017x8x512_S1x1017x1x64_0_0_4_192 : ∀ a, (![0, 0, 4, 192] : Fin 4 → Nat) a + S1x1017x1x64.size a ≤ S1x1017x8x512.size a
  inb_S1x1017x8x512_S1x1017x1x64_0_0_4_256 : ∀ a, (![0, 0, 4, 256] : Fin 4 → Nat) a + S1x1017x1x64.size a ≤ S1x1017x8x512.size a
  inb_S1x1017x8x512_S1x1017x1x64_0_0_4_320 : ∀ a, (![0, 0, 4, 320] : Fin 4 → Nat) a + S1x1017x1x64.size a ≤ S1x1017x8x512.size a
  inb_S1x1017x8x512_S1x1017x1x64_0_0_4_384 : ∀ a, (![0, 0, 4, 384] : Fin 4 → Nat) a + S1x1017x1x64.size a ≤ S1x1017x8x512.size a
  inb_S1x1031x64_S1x1017x64_0_11_0 : ∀ a, (![0, 11, 0] : Fin 3 → Nat) a + S1x1017x64.size a ≤ S1x1031x64.size a
  inb_S1x1017x8x512_S1x1017x1x64_0_0_4_448 : ∀ a, (![0, 0, 4, 448] : Fin 4 → Nat) a + S1x1017x1x64.size a ≤ S1x1017x8x512.size a
  inb_S1x1017x8x512_S1x1017x1x64_0_0_5_0 : ∀ a, (![0, 0, 5, 0] : Fin 4 → Nat) a + S1x1017x1x64.size a ≤ S1x1017x8x512.size a
  inb_S1x1017x8x512_S1x1017x1x64_0_0_5_64 : ∀ a, (![0, 0, 5, 64] : Fin 4 → Nat) a + S1x1017x1x64.size a ≤ S1x1017x8x512.size a
  inb_S1x1017x8x512_S1x1017x1x64_0_0_5_128 : ∀ a, (![0, 0, 5, 128] : Fin 4 → Nat) a + S1x1017x1x64.size a ≤ S1x1017x8x512.size a
  inb_S1x1017x8x512_S1x1017x1x64_0_0_5_192 : ∀ a, (![0, 0, 5, 192] : Fin 4 → Nat) a + S1x1017x1x64.size a ≤ S1x1017x8x512.size a
  inb_S1x1017x8x512_S1x1017x1x64_0_0_5_256 : ∀ a, (![0, 0, 5, 256] : Fin 4 → Nat) a + S1x1017x1x64.size a ≤ S1x1017x8x512.size a
  inb_S1x1017x8x512_S1x1017x1x64_0_0_5_320 : ∀ a, (![0, 0, 5, 320] : Fin 4 → Nat) a + S1x1017x1x64.size a ≤ S1x1017x8x512.size a
  inb_S1x1017x8x512_S1x1017x1x64_0_0_5_384 : ∀ a, (![0, 0, 5, 384] : Fin 4 → Nat) a + S1x1017x1x64.size a ≤ S1x1017x8x512.size a
  inb_S1x1031x64_S1x1017x64_0_12_0 : ∀ a, (![0, 12, 0] : Fin 3 → Nat) a + S1x1017x64.size a ≤ S1x1031x64.size a
  inb_S1x1017x8x512_S1x1017x1x64_0_0_5_448 : ∀ a, (![0, 0, 5, 448] : Fin 4 → Nat) a + S1x1017x1x64.size a ≤ S1x1017x8x512.size a
  inb_S1x1017x8x512_S1x1017x1x64_0_0_6_0 : ∀ a, (![0, 0, 6, 0] : Fin 4 → Nat) a + S1x1017x1x64.size a ≤ S1x1017x8x512.size a
  inb_S1x1017x8x512_S1x1017x1x64_0_0_6_64 : ∀ a, (![0, 0, 6, 64] : Fin 4 → Nat) a + S1x1017x1x64.size a ≤ S1x1017x8x512.size a
  inb_S1x1017x8x512_S1x1017x1x64_0_0_6_128 : ∀ a, (![0, 0, 6, 128] : Fin 4 → Nat) a + S1x1017x1x64.size a ≤ S1x1017x8x512.size a
  inb_S1x1017x8x512_S1x1017x1x64_0_0_6_192 : ∀ a, (![0, 0, 6, 192] : Fin 4 → Nat) a + S1x1017x1x64.size a ≤ S1x1017x8x512.size a
  inb_S1x1017x8x512_S1x1017x1x64_0_0_6_256 : ∀ a, (![0, 0, 6, 256] : Fin 4 → Nat) a + S1x1017x1x64.size a ≤ S1x1017x8x512.size a
  inb_S1x1017x8x512_S1x1017x1x64_0_0_6_320 : ∀ a, (![0, 0, 6, 320] : Fin 4 → Nat) a + S1x1017x1x64.size a ≤ S1x1017x8x512.size a
  inb_S1x1017x8x512_S1x1017x1x64_0_0_6_384 : ∀ a, (![0, 0, 6, 384] : Fin 4 → Nat) a + S1x1017x1x64.size a ≤ S1x1017x8x512.size a
  inb_S1x1031x64_S1x1017x64_0_13_0 : ∀ a, (![0, 13, 0] : Fin 3 → Nat) a + S1x1017x64.size a ≤ S1x1031x64.size a
  inb_S1x1017x8x512_S1x1017x1x64_0_0_6_448 : ∀ a, (![0, 0, 6, 448] : Fin 4 → Nat) a + S1x1017x1x64.size a ≤ S1x1017x8x512.size a
  inb_S1x1017x8x512_S1x1017x1x64_0_0_7_0 : ∀ a, (![0, 0, 7, 0] : Fin 4 → Nat) a + S1x1017x1x64.size a ≤ S1x1017x8x512.size a
  inb_S1x1017x8x512_S1x1017x1x64_0_0_7_64 : ∀ a, (![0, 0, 7, 64] : Fin 4 → Nat) a + S1x1017x1x64.size a ≤ S1x1017x8x512.size a
  inb_S1x1017x8x512_S1x1017x1x64_0_0_7_128 : ∀ a, (![0, 0, 7, 128] : Fin 4 → Nat) a + S1x1017x1x64.size a ≤ S1x1017x8x512.size a
  inb_S1x1017x8x512_S1x1017x1x64_0_0_7_192 : ∀ a, (![0, 0, 7, 192] : Fin 4 → Nat) a + S1x1017x1x64.size a ≤ S1x1017x8x512.size a
  inb_S1x1017x8x512_S1x1017x1x64_0_0_7_256 : ∀ a, (![0, 0, 7, 256] : Fin 4 → Nat) a + S1x1017x1x64.size a ≤ S1x1017x8x512.size a
  inb_S1x1017x8x512_S1x1017x1x64_0_0_7_320 : ∀ a, (![0, 0, 7, 320] : Fin 4 → Nat) a + S1x1017x1x64.size a ≤ S1x1017x8x512.size a
  inb_S1x1017x8x512_S1x1017x1x64_0_0_7_384 : ∀ a, (![0, 0, 7, 384] : Fin 4 → Nat) a + S1x1017x1x64.size a ≤ S1x1017x8x512.size a
  inb_S1x1031x64_S1x1017x64_0_14_0 : ∀ a, (![0, 14, 0] : Fin 3 → Nat) a + S1x1017x64.size a ≤ S1x1031x64.size a
  inb_S1x1017x8x512_S1x1017x1x64_0_0_7_448 : ∀ a, (![0, 0, 7, 448] : Fin 4 → Nat) a + S1x1017x1x64.size a ≤ S1x1017x8x512.size a
  shapeCasts_S16x1017x8x512_S16x1017x8x8x64 : S16x1017x8x512.ShapeCasts S16x1017x8x8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1031x64.size a ≤ S16x1031x64.size a
  hwx0_0 : ∀ i : grid0.Coords, EltTy.bits .f32 = 32 ∨ (Rect.block (s := S16x1031x64) S1x1031x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1017x8x512.size a ≤ S16x1017x8x512.size a
  hwx0_1 : ∀ i : grid0.Coords, EltTy.bits .f32 = 32 ∨ (Rect.block (s := S16x1017x8x512) S1x1017x8x512.size (cc0_transform_1 i) (hinb0_1 i)).WholeWords (EltTy.packing .f32)

variable [Facts₀]

abbrev win0_0 : Pipeline.Window sig grid0 :=
  Pipeline.Window.ofSpec (Memref.whole main_v3) S1x1031x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1017x8x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x64 : Shape := ⟨3, ![16, 1024, 64]⟩
abbrev S16x1x64 : Shape := ⟨3, ![16, 1, 64]⟩
abbrev S16x1x7x64 : Shape := ⟨4, ![16, 1, 7, 64]⟩
abbrev S16x7x64 : Shape := ⟨3, ![16, 7, 64]⟩
abbrev S16x1031x64 : Shape := ⟨3, ![16, 1031, 64]⟩
abbrev S1017 : Shape := ⟨1, ![1017]⟩
abbrev S1017x1x1 : Shape := ⟨3, ![1017, 1, 1]⟩
abbrev S8 : Shape := ⟨1, ![8]⟩
abbrev S1x8x1 : Shape := ⟨3, ![1, 8, 1]⟩
abbrev S1017x8x1 : Shape := ⟨3, ![1017, 8, 1]⟩
abbrev S1x1x8 : Shape := ⟨3, ![1, 1, 8]⟩
abbrev S1017x8x8 : Shape := ⟨3, ![1017, 8, 8]⟩
abbrev S_ : Shape := ⟨0, ![]⟩
abbrev S1017x8x8x1 : Shape := ⟨4, ![1017, 8, 8, 1]⟩
abbrev S16x1017x8x8x64 : Shape := ⟨5, ![16, 1017, 8, 8, 64]⟩

abbrev nBuf : Space → Nat
  | .hbm => 26
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S16x1x64, .f32⟩
  | .hbm, ⟨2, _⟩ => ⟨S16x1x7x64, .f32⟩
  | .hbm, ⟨3, _⟩ => ⟨S16x7x64, .f32⟩
  | .hbm, ⟨4, _⟩ => ⟨S16x1031x64, .f32⟩
  | .hbm, ⟨5, _⟩ => ⟨S1017, .i32⟩
  | .hbm, ⟨6, _⟩ => ⟨S1017x1x1, .i32⟩
  | .hbm, ⟨7, _⟩ => ⟨S8, .i32⟩
  | .hbm, ⟨8, _⟩ => ⟨S1x8x1, .i32⟩
  | .hbm, ⟨9, _⟩ => ⟨S1017x8x1, .i32⟩
  | .hbm, ⟨10, _⟩ => ⟨S1017x8x1, .i32⟩
  | .hbm, ⟨11, _⟩ => ⟨S1017x8x1, .i32⟩
  | .hbm, ⟨12, _⟩ => ⟨S8, .i32⟩
  | .hbm, ⟨13, _⟩ => ⟨S1x1x8, .i32⟩
  | .hbm, ⟨14, _⟩ => ⟨S1017x8x8, .i32⟩
  | .hbm, ⟨15, _⟩ => ⟨S1017x8x8, .i32⟩
  | .hbm, ⟨16, _⟩ => ⟨S1017x8x8, .i32⟩
  | .hbm, ⟨17, _⟩ => ⟨S_, .i32⟩
  | .hbm, ⟨18, _⟩ => ⟨S1017x8x8, .i32⟩
  | .hbm, ⟨19, _⟩ => ⟨S1017x8x8, .i1⟩
  | .hbm, ⟨20, _⟩ => ⟨S_, .i32⟩
  | .hbm, ⟨21, _⟩ => ⟨S1017x8x8, .i32⟩
  | .hbm, ⟨22, _⟩ => ⟨S1017x8x8, .i32⟩
  | .hbm, ⟨23, _⟩ => ⟨S1017x8x8, .i32⟩
  | .hbm, ⟨24, _⟩ => ⟨S1017x8x8x1, .i32⟩
  | .hbm, ⟨25, _⟩ => ⟨S16x1017x8x8x64, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]

class Facts₀ : Prop where
  slices_S16x1024x64_S16x1x64_0_0_0 : S16x1024x64.Slices ![0, 0, 0] S16x1x64
  bcast_S16x1x64_S16x1x7x64_0_1_3 : S16x1x64.BroadcastsInDim S16x1x7x64 (![0, 1, 3] : Fin 3 → Fin S16x1x7x64.rank)
  shapeCasts_S16x1x7x64_S16x7x64 : S16x1x7x64.ShapeCasts S16x7x64
  concatenates_S16x7x64_S16x1024x64_S16x1031x64_d1 : Shape.Concatenates [S16x7x64, S16x1024x64] S16x1031x64 1
  bcast_S1017_S1017x1x1_0 : S1017.BroadcastsInDim S1017x1x1 (![0] : Fin 1 → Fin S1017x1x1.rank)
  bcast_S8_S1x8x1_1 : S8.BroadcastsInDim S1x8x1 (![1] : Fin 1 → Fin S1x8x1.rank)
  bcast_S1017x1x1_S1017x8x1_0_1_2 : S1017x1x1.BroadcastsInDim S1017x8x1 (![0, 1, 2] : Fin 3 → Fin S1017x8x1.rank)
  bcast_S1x8x1_S1017x8x1_0_1_2 : S1x8x1.BroadcastsInDim S1017x8x1 (![0, 1, 2] : Fin 3 → Fin S1017x8x1.rank)
  bcast_S8_S1x1x8_2 : S8.BroadcastsInDim S1x1x8 (![2] : Fin 1 → Fin S1x1x8.rank)
  bcast_S1017x8x1_S1017x8x8_0_1_2 : S1017x8x1.BroadcastsInDim S1017x8x8 (![0, 1, 2] : Fin 3 → Fin S1017x8x8.rank)
  bcast_S1x1x8_S1017x8x8_0_1_2 : S1x1x8.BroadcastsInDim S1017x8x8 (![0, 1, 2] : Fin 3 → Fin S1017x8x8.rank)
  bcast_S_S1017x8x8 : S_.BroadcastsInDim S1017x8x8 (![] : Fin 0 → Fin S1017x8x8.rank)
  bcast_S1017x8x8_S1017x8x8x1_0_1_2 : S1017x8x8.BroadcastsInDim S1017x8x8x1 (![0, 1, 2] : Fin 3 → Fin S1017x8x8x1.rank)
  gather_S16x1031x64_S1017x8x8x1_S16x1017x8x8x64_04_1_n_n_1_3_16164_wf : GatherDims.WF S16x1031x64 S1017x8x8x1 S16x1017x8x8x64 [0, 4] [1] [] [1] [] 3 ![16, 1, 64]

variable [Facts₀]

def gather_S16x1031x64_S1017x8x8x1_S16x1017x8x8x64_04_1_n_n_1_3_16164 : GatherDims S16x1031x64 S1017x8x8x1 S16x1017x8x8x64 where
  offsetDims := [0, 4]
  collapsedSliceDims := [1]
  operandBatchingDims := []
  startIndicesBatchingDims := []
  startIndexMap := [1]
  indexVectorDim := 3
  sliceSizes := ![16, 1, 64]
  wf := gather_S16x1031x64_S1017x8x8x1_S16x1017x8x8x64_04_1_n_n_1_3_16164_wf

class Facts : Prop extends Facts₀ where

variable [Facts]
-- ==== Proof.Spec.lean ====
/-
  The sliding-window unfold, as mathematics.

  From a padded sequence `A : [16, 1031, 64]` (batch, time, feature) the result is
  `out[b, j, m, p, d] = A[b, j + m + p, d]` over `[16, 1017, 8, 8, 64]`: window `j` of the outer
  8-window, sub-window `m`, position `p`.  Both programs build the same padded sequence (seven copies of
  the first time step, then the sequence), so nothing about the padding is needed below: everything is
  stated for an arbitrary `A`.

  Three spellings of the same function are named here:
  * `windows A`      — the result itself, rank 5;
  * `lanes A`        — the result with its last two axes `(p, d)` merged into one lane axis `q = 64 p + d`
                        (rank 4, `[16, 1017, 8, 512]`): the row-major reshape of this is `windows A`;
  * `lanesBlk X`     — the same for ONE batch entry `X : [1, 1031, 64]`, giving `[1, 1017, 8, 512]`.
  The last section is the integer arithmetic of the reference's start indices: `j + m + p` computed in
  32-bit words, wrapped once if negative, read back as a signed integer, is the natural number `j + m + p`.
-/
import Idealize.ShloMosaic.PureOps.Ideal
import Idealize.ShloMosaic.Lib.ValueIdx
import Idealize.ShloMosaic.Lib.Pipeline.Value

namespace Cert.Unfold

open Idealize.ShloMosaic Idealize.ShloMosaic.ValueIdx

/-- The padded sequence: 16 batch entries, 7 + 1024 time steps, 64 features. -/
abbrev SPad : Shape := ⟨3, ![16, 1031, 64]⟩
/-- One batch entry of it. -/
abbrev SPad1 : Shape := ⟨3, ![1, 1031, 64]⟩
/-- The result: batch, outer window, sub-window, position, feature. -/
abbrev SWin : Shape := ⟨5, ![16, 1017, 8, 8, 64]⟩
/-- The result with (position, feature) merged into 512 lanes. -/
abbrev SLane : Shape := ⟨4, ![16, 1017, 8, 512]⟩
/-- One batch entry of that. -/
abbrev SLane1 : Shape := ⟨4, ![1, 1017, 8, 512]⟩

variable {α : Type}

/-- `out[b, j, m, p, d] = A[b, j + m + p, d]`. -/
def windows (A : SPad.Idx → α) : SWin.Idx → α := fun i =>
  A (fun a => match a with
    | ⟨0, _⟩ => ⟨(i 0).val, (i 0).isLt⟩
    | ⟨1, _⟩ => ⟨(i 1).val + (i 2).val + (i 3).val, by
        have h1 : (i 1).val < 1017 := (i 1).isLt
        have h2 : (i 2).val < 8 := (i 2).isLt
        have h3 : (i 3).val < 8 := (i 3).isLt
        show (i 1).val + (i 2).val + (i 3).val < 1031; omega⟩
    | ⟨2, _⟩ => ⟨(i 4).val, (i 4).isLt⟩)

/-- The same with lanes `q = 64 p + d`: `[b, j, m, q] ↦ A[b, j + m + q / 64, q % 64]`. -/
def lanes (A : SPad.Idx → α) : SLane.Idx → α := fun y =>
  A (fun a => match a with
    | ⟨0, _⟩ => ⟨(y 0).val, (y 0).isLt⟩
    | ⟨1, _⟩ => ⟨(y 1).val + (y 2).val + (y 3).val / 64, by
        have h1 : (y 1).val < 1017 := (y 1).isLt
        have h2 : (y 2).val < 8 := (y 2).isLt
        have h3 : (y 3).val < 512 := (y 3).isLt
        show (y 1).val + (y 2).val + (y 3).val / 64 < 1031; omega⟩
    | ⟨2, _⟩ => ⟨(y 3).val % 64, Nat.mod_lt _ (by decide)⟩)

/-- One batch entry: `[0, j, m, q] ↦ X[0, j + m + q / 64, q % 64]`. -/
def lanesBlk (X : SPad1.Idx → α) : SLane1.Idx → α := fun y =>
  X (fun a => match a with
    | ⟨0, _⟩ => ⟨0, Nat.one_pos⟩
    | ⟨1, _⟩ => ⟨(y 1).val + (y 2).val + (y 3).val / 64, by
        have h1 : (y 1).val < 1017 := (y 1).isLt
        have h2 : (y 2).val < 8 := (y 2).isLt
        have h3 : (y 3).val < 512 := (y 3).isLt
        show (y 1).val + (y 2).val + (y 3).val / 64 < 1031; omega⟩
    | ⟨2, _⟩ => ⟨(y 3).val % 64, Nat.mod_lt _ (by decide)⟩)

/-- Splitting the 512 lanes back into (position, feature) — the row-major reshape
    `[16, 1017, 8, 512] → [16, 1017, 8, 8, 64]` — turns `lanes A` into `windows A`. -/
theorem shapeCast_lanes (A : SPad.Idx → α) (h : SLane.ShapeCasts SWin) :
    shapeCast SWin (lanes A) h = windows A := by
  funext i
  have h0 : (i 0).val < 16 := (i 0).isLt
  have h1 : (i 1).val < 1017 := (i 1).isLt
  have h2 : (i 2).val < 8 := (i 2).isLt
  have h3 : (i 3).val < 8 := (i 3).isLt
  have h4 : (i 4).val < 64 := (i 4).isLt
  refine (shapeCast_apply (lanes A) h i (fun a => match a with
    | ⟨0, _⟩ => ⟨(i 0).val, h0⟩
    | ⟨1, _⟩ => ⟨(i 1).val, h1⟩
    | ⟨2, _⟩ => ⟨(i 2).val, h2⟩
    | ⟨3, _⟩ => ⟨(i 3).val * 64 + (i 4).val, by show (i 3).val * 64 + (i 4).val < 512; omega⟩) ?_).trans ?_
  · rw [Shape.rowMajor_val_four, Shape.rowMajor_val_five]
    show (((i 0).val * 1017 + (i 1).val) * 8 + (i 2).val) * 512 + ((i 3).val * 64 + (i 4).val)
      = ((((i 0).val * 1017 + (i 1).val) * 8 + (i 2).val) * 8 + (i 3).val) * 64 + (i 4).val
    omega
  · unfold lanes windows
    congr 1
    funext a
    match a with
    | ⟨0, _⟩ => rfl
    | ⟨1, _⟩ => apply Fin.ext; show (i 1).val + (i 2).val + ((i 3).val * 64 + (i 4).val) / 64 = (i 1).val + (i 2).val + (i 3).val; omega
    | ⟨2, _⟩ => apply Fin.ext; show ((i 3).val * 64 + (i 4).val) % 64 = (i 4).val; omega

/-! ## The start index `j + m + p` in 32-bit words -/

/-- `j + m + p` for `j < 1017`, `m, p < 8`, added as 32-bit words, is not negative as a signed word, so the
    "add the axis length to a negative index" select keeps it, and read back signed it is the natural number. -/
theorem start_toNat (j m p : Nat) (hj : j < 1017) (hm : m < 8) (hp : p < 8) :
    (Scalar.select
      (IntOp.cmpi .slt (IntOp.addi (IntOp.addi (BitVec.ofNat 32 j) (BitVec.ofNat 32 m)) (BitVec.ofNat 32 p)) 0#32)
      (IntOp.addi (IntOp.addi (IntOp.addi (BitVec.ofNat 32 j) (BitVec.ofNat 32 m)) (BitVec.ofNat 32 p)) 1031#32)
      (IntOp.addi (IntOp.addi (BitVec.ofNat 32 j) (BitVec.ofNat 32 m)) (BitVec.ofNat 32 p))).toInt.toNat = j + m + p := by
  have hs : IntOp.addi (IntOp.addi (BitVec.ofNat 32 j) (BitVec.ofNat 32 m)) (BitVec.ofNat 32 p) = BitVec.ofNat 32 (j + m + p) := by
    unfold IntOp.addi
    rw [← BitVec.ofNat_add, ← BitVec.ofNat_add]
  rw [hs]
  have hn : (BitVec.ofNat 32 (j + m + p)).toNat = j + m + p := by
    rw [BitVec.toNat_ofNat]; exact Nat.mod_eq_of_lt (by omega)
  have hi : (BitVec.ofNat 32 (j + m + p)).toInt = ((j + m + p : Nat) : Int) := by
    rw [BitVec.toInt_eq_toNat_of_lt (by rw [hn]; omega), hn]
  have hc : IntOp.cmpi .slt (BitVec.ofNat 32 (j + m + p)) 0#32 = 0#1 := by
    unfold IntOp.cmpi
    show BitVec.ofBool ((BitVec.ofNat 32 (j + m + p)).slt 0#32) = 0#1
    have : (BitVec.ofNat 32 (j + m + p)).slt 0#32 = false := by
      rw [BitVec.slt, hi]; simp; omega
    rw [this]; rfl
  rw [hc]
  show (if (0#1 : BitVec 1) = 1 then _ else BitVec.ofNat 32 (j + m + p)).toInt.toNat = _
  rw [if_neg (by decide), hi]
  rfl

end Cert.Unfold
-- ==== Proof.Block.lean ====
/-
  What the kernel body leaves in its output block.

  The body makes 64 copies, one per (sub-window m, position p): rows `m + p … m + p + 1016` of its input block
  `X : [1, 1031, 64]` go, as a `[1, 1017, 1, 64]` piece, to sub-window `m`, lanes `64 p … 64 p + 63` of the
  output block `[1, 1017, 8, 512]`.  Each piece's value is two row-major reshapes of the loaded rows
  (`[1,1017,64] → [1017,64] → [1,1017,1,64]`), which move nothing: piece entry `(0, j, 0, d)` is `X[0, m + p + j, d]`.
  So every piece is the restriction of ONE function of the block index, `lanesBlk X`:
  `(0, j, m, q) ↦ X[0, j + m + q / 64, q % 64]`, and since the 64 pieces tile the block, the block ends
  holding exactly that function.
-/
import proofs.«113390_j55_1_alg».proof.Proof.Gen.KernelIdeal.Frame
import proofs.«113390_j55_1_alg».proof.Proof.Spec

set_option maxRecDepth 16384

noncomputable section

namespace Cert.KernelIdeal.Block

open Idealize.ShloMosaic Idealize.ShloMosaic.TcCoe Idealize.SL.Sem
open Cert.KernelIdeal Cert.KernelIdeal.Gen Cert.Unfold

variable {F : FTy → Type} [FloatOps F]

/-- One copy, at any offsets: the rows `k … k + 1016` of the input block, reshaped twice, stored at sub-window `a`,
    lanes `b … b + 63`.  When `b` is a multiple of 64 and `k = a + b / 64`, the piece at its own index `x` is
    `lanesBlk X` at the block index under `x`. -/
theorem copy_apply (X : Vec F S1x1031x64 .f32) (k a b : Nat)
    (inbL : ∀ i, (![0, k, 0] : Fin 3 → Nat) i + S1x1017x64.size i ≤ S1x1031x64.size i)
    (inbS : ∀ i, (![0, 0, a, b] : Fin 4 → Nat) i + S1x1017x1x64.size i ≤ S1x1017x8x512.size i)
    (hb : b % 64 = 0) (hk : k = a + b / 64)
    (h1 : S1x1017x64.ShapeCasts S1017x64) (h2 : S1017x64.ShapeCasts S1x1017x1x64) (x : S1x1017x1x64.Idx) :
    shapeCast S1x1017x1x64 (shapeCast S1017x64 (View.ld X (Rect.unit (s := S1x1031x64) ![0, k, 0] S1x1017x64.size inbL)) h1) h2 x
      = lanesBlk X ((Rect.unit (s := S1x1017x8x512) ![0, 0, a, b] S1x1017x1x64.size inbS).idx x) := by
  have x0 : (x 0).val < 1 := (x 0).isLt
  have x1 : (x 1).val < 1017 := (x 1).isLt
  have x2 : (x 2).val < 1 := (x 2).isLt
  have x3 : (x 3).val < 64 := (x 3).isLt
  -- the outer reshape: [1,1017,1,64] at x reads [1017,64] at (x 1, x 3)
  refine (shapeCast_apply _ h2 x (fun i => match i with | ⟨0, _⟩ => ⟨(x 1).val, x1⟩ | ⟨1, _⟩ => ⟨(x 3).val, x3⟩)
    (by rw [Shape.rowMajor_val_two, Shape.rowMajor_val_four]
        show (x 1).val * 64 + (x 3).val = (((x 0).val * 1017 + (x 1).val) * 1 + (x 2).val) * 64 + (x 3).val
        omega)).trans ?_
  -- the inner reshape: [1017,64] at (x 1, x 3) reads [1,1017,64] at (0, x 1, x 3)
  refine (shapeCast_apply _ h1 _ (fun i => match i with | ⟨0, _⟩ => ⟨0, Nat.one_pos⟩ | ⟨1, _⟩ => ⟨(x 1).val, x1⟩ | ⟨2, _⟩ => ⟨(x 3).val, x3⟩)
    (by rw [Shape.rowMajor_val_three, Shape.rowMajor_val_two]
        show (0 * 1017 + (x 1).val) * 64 + (x 3).val = (x 1).val * 64 + (x 3).val
        omega)).trans ?_
  -- the load reads X at the rows shifted by k; the block index under x is (0, x 1, a, b + x 3)
  show X _ = X _
  congr 1
  funext i
  apply Fin.ext
  match i with
  | ⟨0, _⟩ => show 0 + 1 * 0 = 0; omega
  | ⟨1, _⟩ =>
    show k + 1 * (x 1).val = (0 + 1 * (x 1).val) + (a + 1 * (x 2).val) + (b + 1 * (x 3).val) / 64
    omega
  | ⟨2, _⟩ =>
    show 0 + 1 * (x 3).val = (b + 1 * (x 3).val) % 64
    omega

/-- The output block after the body: the 64 pieces, each the restriction of `lanesBlk X` to its rectangle
    (`copy_apply`, at that copy's three offsets), tile the block, so the block is `lanesBlk X`. -/
theorem out_eq (X : Vec F S1x1031x64 .f32) : out0_1 X = lanesBlk X := by
  funext y
  unfold out0_1
  refine View.canon_apply_of_pieces (lanesBlk X) _ (List.forall_iff_forall_mem.mp ?_) y (cover0_1 .. )
  simp only [List.Forall]
  repeat' apply And.intro
  all_goals
    intro x
    exact copy_apply X _ _ _ _ _ (by decide) (by decide) _ _ x

end Cert.KernelIdeal.Block

end
-- ==== Proof.KernelValue.lean ====
/-
  The kernel's result array, read off its frame run.

  The region is a 16-point grid over the batch axis: point `t` fetches batch entry `t` of the padded sequence
  (`[1, 1031, 64]` of `[16, 1031, 64]`) and writes back batch entry `t` of the lane-merged result
  (`[1, 1017, 8, 512]` of `[16, 1017, 8, 512]`).  What the body leaves in the output block is `lanesBlk` of
  the input block (Block.lean), and `lanesBlk` of batch entry `t` is batch entry `t` of `lanes` of the whole
  padded sequence; the 16 blocks cover the array, so after the region the array is `lanes (padded)`.
  The one host operation after the region is the row-major reshape that splits the 512 lanes into
  (position, feature): it turns `lanes` into `windows` (Spec.lean).
-/
import proofs.«113390_j55_1_alg».proof.Proof.Gen.KernelIdeal.Frame
import proofs.«113390_j55_1_alg».proof.Proof.Block
import Idealize.ShloMosaic.Lib.Pipeline.Value
import Idealize.ShloMosaic.Lib.StableHlo.Run

set_option maxRecDepth 16384

noncomputable section

namespace Cert.KernelIdeal.Unfolded

open Idealize.ShloMosaic Idealize.ShloMosaic.TcCoe Idealize.SL.Sem Idealize.ShloMosaic.StableHlo
open Idealize.ShloMosaic.Pipeline (Dat)
open Cert.KernelIdeal Cert.KernelIdeal.Gen Cert.Unfold

variable {F : FTy → Type} [FloatOps F]
variable (m : (ℓ : Loc nD τ sig) → Buf (Elt F) ℓ) (ρ : Dev nD → PrngReg)

/-- The padded sequence as the region finds it: the array the input window stages. -/
abbrev padded (c : Dev nD) : Vec F S16x1031x64 .f32 := V m c main_v3

/-- The index maps over the grid: both windows move along the batch axis only, one entry per point. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- What point `t` writes back is batch entry `t` of `lanes` of the padded sequence. -/
theorem flushed_eq (c : Dev nD) (t : Fin cfg0.N) :
    (dats m 0 c).flushed 1 t = ((cfg0.win 1).blk t).view.read (Elt F) (lanes (padded m c)) := by
  show (cfg0.win 1).cut (grid0.coords t) ((dats m 0 c).after 1 t) = _
  rw [after0_1, Block.out_eq]
  obtain ⟨e0, e1, e2, e3, e4, e5, e6⟩ := idx_facts t
  funext j
  show lanesBlk (iblk m c 0 t) j = lanes (padded m c) (((cfg0.win 1).blk t).view.emb j)
  have j0 : (j 0).val < 1 := (j 0).isLt
  have j1 : (j 1).val < 1017 := (j 1).isLt
  have j2 : (j 2).val < 8 := (j 2).isLt
  have j3 : (j 3).val < 512 := (j 3).isLt
  unfold lanesBlk lanes iblk
  show V m c main_v3 (((cfg0.win 0).blk t).view.emb _) = V m c main_v3 _
  congr 1
  funext a
  apply Fin.ext
  match a with
  | ⟨0, _⟩ =>
    show win0_0.index t (0 : Fin 3) * 1 + 1 * 0 = win0_1.index t (0 : Fin 4) * 1 + 1 * (j 0).val
    omega
  | ⟨1, _⟩ =>
    show win0_0.index t (1 : Fin 3) * 1031 + 1 * ((j 1).val + (j 2).val + (j 3).val / 64)
      = (win0_1.index t (1 : Fin 4) * 1017 + 1 * (j 1).val) + (win0_1.index t (2 : Fin 4) * 8 + 1 * (j 2).val)
        + (win0_1.index t (3 : Fin 4) * 512 + 1 * (j 3).val) / 64
    rw [e1, e4, e5, e6]; omega
  | ⟨2, _⟩ =>
    show win0_0.index t (2 : Fin 3) * 64 + 1 * ((j 3).val % 64) = (win0_1.index t (3 : Fin 4) * 512 + 1 * (j 3).val) % 64
    rw [e2, e6]; omega

/-- An index of the lane-merged array is in point `t`'s block iff each coordinate is in the block's range. -/
theorem mem_blk (t : Fin cfg0.N) (i : S16x1017x8x512.Idx) :
    i ∈ ((cfg0.win 1).blk t).view.set ↔ ∀ a : Fin 4, win0_1.index t a * S1x1017x8x512.size a ≤ (i a).val
      ∧ (i a).val < win0_1.index t a * S1x1017x8x512.size a + S1x1017x8x512.size a := by
  show i ∈ ((View.whole main_v4).slice (win0_1.rect t)).set ↔ _
  rw [View.set_slice_whole, Rect.mem_set_unit]
  exact Iff.rfl

/-- The 16 blocks cover the array (index `i` is in the block of point `i 0`), so after the region the array is
    `lanes` of the padded sequence. -/
theorem final (c : Dev nD) : (dats m 0 c).arrAt 1 cfg0.N = lanes (padded m c) :=
  (dats m 0 c).arrAt_eq_of_cover 1 (lanes (padded m c)) (fun t _ => flushed_eq m c t) fun i => by
    have i0 : (i 0).val < 16 := (i 0).isLt
    have i1 : (i 1).val < 1017 := (i 1).isLt
    have i2 : (i 2).val < 8 := (i 2).isLt
    have i3 : (i 3).val < 512 := (i 3).isLt
    refine ⟨⟨(i 0).val, by rw [show cfg0.N = 16 from N_0]; exact i0⟩, flush0_1 _, ?_⟩
    obtain ⟨-, -, -, e3, e4, e5, e6⟩ := idx_facts ⟨(i 0).val, by rw [show cfg0.N = 16 from N_0]; exact i0⟩
    rw [mem_blk]
    intro a
    match a with
    | ⟨0, _⟩ => show win0_1.index _ (0 : Fin 4) * 1 ≤ (i 0).val ∧ (i 0).val < win0_1.index _ (0 : Fin 4) * 1 + 1; rw [e3]; show (i 0).val * 1 ≤ (i 0).val ∧ (i 0).val < (i 0).val * 1 + 1; omega
    | ⟨1, _⟩ => show win0_1.index _ (1 : Fin 4) * 1017 ≤ (i 1).val ∧ (i 1).val < win0_1.index _ (1 : Fin 4) * 1017 + 1017; rw [e4]; omega
    | ⟨2, _⟩ => show win0_1.index _ (2 : Fin 4) * 8 ≤ (i 2).val ∧ (i 2).val < win0_1.index _ (2 : Fin 4) * 8 + 8; rw [e5]; omega
    | ⟨3, _⟩ => show win0_1.index _ (3 : Fin 4) * 512 ≤ (i 3).val ∧ (i 3).val < win0_1.index _ (3 : Fin 4) * 512 + 512; rw [e6]; omega

/-- The host operation after the region splits the lanes: @main's result is `windows` of the padded sequence. -/
theorem result_eq (c : Dev nD) :
    Pipeline.afterTail₀ cfgs (dats m) 0 (V0 m) [hostOps1] c main_v5 = windows (padded m c) := by
  unfold Pipeline.afterTail₀
  show StableHlo.after hostOps1 _ (Proc.devRef .tc main_v5) = _
  after_results
  have hA : Pipeline.withArrays (cfgs 0).spec c (V0 m c) (fun w => (dats m 0 c).arrAt w (cfgs 0).N)
      (Proc.tc.devRef main_v4) = lanes (padded m c) :=
    (Pipeline.withArrays_arr spec0 launch0.win.arr_inj c _ _ 1).trans (final m c)
  rw [hA]
  exact shapeCast_lanes _ _

/-- The padded sequence is the host operations before the region applied to the argument: seven copies of the
    first time step (a slice, a broadcast, a reshape) joined in front of the sequence. -/
theorem padded_eq (c : Dev nD) :
    padded m c = concatenate S16x1031x64 1
      [⟨S16x7x64, shapeCast S16x7x64 (broadcastInDim S16x1x7x64 ![0, 1, 3] bcast_S16x1x64_S16x1x7x64_0_1_3
          (extractStridedSlice S16x1x64 ![0, 0, 0] (m ((c : Thread nD τ).loc main_arg0)) slices_S16x1024x64_S16x1x64_0_0_0))
          shapeCasts_S16x1x7x64_S16x7x64⟩,
        ⟨S16x1024x64, m ((c : Thread nD τ).loc main_arg0)⟩] concatenates_S16x7x64_S16x1024x64_S16x1031x64_d1 := by
  show StableHlo.after hostOps0 (fun b => m (c, b)) (Proc.devRef .tc main_v3) = _
  after_results
  rfl

/-- The frame run, read: @main's result at `windows` of the padded sequence, the argument unchanged. -/
theorem run : θ_run defs (onTc (τ := τ) (main (F := F))) ⟨m, fun _ => 0, ρ⟩ fun r => ∀ c : Dev nD,
      r.2.mem ((c.tc : Thread nD τ).loc main_v5) = windows (padded m c)
      ∧ r.2.mem ((c.tc : Thread nD τ).loc main_arg0) = m ((c.tc : Thread nD τ).loc main_arg0) :=
  (θ_run defs _ _).mono (fun r h c =>
      ⟨((h c).2 main_v5 (Pipeline.mem_restRefs_of main_v5 (by decide) (by decide))).trans (result_eq m c),
        ((h c).2 main_arg0 (Pipeline.mem_restRefs_of main_arg0 (by decide) (by decide))).trans (W_main_arg0 m (dats m) c)⟩)
    (run_main m ρ)

end Cert.KernelIdeal.Unfolded

end
-- ==== Proof.RefValue.lean ====
/-
  The reference's result: the gather over start indices `j + m + p` is the sliding-window unfold.

  The reference builds the integer table `idx[j, m, p] = j + m + p` (three iotas, broadcast and added in 32-bit
  words, with the usual "negative index wraps once" select, which never fires here), gives it a trailing unit axis,
  and gathers rows of the padded sequence: the gather keeps the batch and feature axes whole (offset axes 0 and 4 of
  the result), collapses the time axis, and reads the time coordinate from the table, clamped into `[0, 1030]`.
  Since `j + m + p ≤ 1016 + 7 + 7 = 1030` the clamp does nothing, and result entry `(b, j, m, p, d)` is the padded
  sequence at `(b, j + m + p, d)`: `windows`.
-/
import proofs.«113390_j55_1_alg».proof.Proof.Gen.ReferenceIdeal.Read
import proofs.«113390_j55_1_alg».proof.Proof.Spec

noncomputable section

namespace Cert.ReferenceIdeal.Gathered

open Idealize.ShloMosaic Idealize.ShloMosaic.TcCoe Idealize.SL.Sem
open Cert.ReferenceIdeal Cert.ReferenceIdeal.Gen Cert.ReferenceIdeal.Read Cert.Unfold

variable {F : FTy → Type} [FloatOps F]

/-- The gather's dimension numbers. -/
abbrev gd : GatherDims S16x1031x64 S1017x8x8x1 S16x1017x8x8x64 :=
  gather_S16x1031x64_S1017x8x8x1_S16x1017x8x8x64_04_1_n_n_1_3_16164

/-- Where result index `i` reads the start-index table: at `(i 1, i 2, i 3, 0)`. -/
abbrev tableIdx (i : S16x1017x8x8x64.Idx) : S1017x8x8x1.Idx := fun a => match a with
  | ⟨0, _⟩ => ⟨(i 1).val, (i 1).isLt⟩
  | ⟨1, _⟩ => ⟨(i 2).val, (i 2).isLt⟩
  | ⟨2, _⟩ => ⟨(i 3).val, (i 3).isLt⟩
  | ⟨3, _⟩ => ⟨0, Nat.one_pos⟩

/-- The operand index of the gather, axis by axis: the batch and feature coordinates are the result's own (offset
    axes), the time coordinate is the table's entry, read signed and clamped to the last row. -/
theorem operand_coords (idx : IVec S1017x8x8x1 32) (i : S16x1017x8x8x64.Idx) :
    (gd.operandIdx i idx 0).val = 0 + 0 + (i 0).val
    ∧ (gd.operandIdx i idx 1).val = min (idx (tableIdx i)).toInt.toNat (1031 - 1) + 0 + 0
    ∧ (gd.operandIdx i idx 2).val = 0 + 0 + (i 4).val := by
  refine ⟨rfl, ?_, rfl⟩
  show min (idx (gd.siIdx i ⟨0, _⟩)).toInt.toNat (1031 - 1) + 0 + 0 = _
  have e : gd.siIdx i ⟨0, by decide⟩ = tableIdx i := by
    funext a
    match a with
    | ⟨0, _⟩ => rfl
    | ⟨1, _⟩ => rfl
    | ⟨2, _⟩ => rfl
    | ⟨3, _⟩ => rfl
  rw [e]

/-- The table's entry at `(j, m, p, 0)`: the three iotas added as 32-bit words, under the wrap-if-negative select. -/
theorem table_apply (k : S1017x8x8x1.Idx) :
    val_main_v21 (F := F) k = Scalar.select
      (IntOp.cmpi .slt (IntOp.addi (IntOp.addi (BitVec.ofNat 32 (k 0).val) (BitVec.ofNat 32 (k 1).val)) (BitVec.ofNat 32 (k 2).val)) 0#32)
      (IntOp.addi (IntOp.addi (IntOp.addi (BitVec.ofNat 32 (k 0).val) (BitVec.ofNat 32 (k 1).val)) (BitVec.ofNat 32 (k 2).val)) 1031#32)
      (IntOp.addi (IntOp.addi (BitVec.ofNat 32 (k 0).val) (BitVec.ofNat 32 (k 1).val)) (BitVec.ofNat 32 (k 2).val)) := by
  simp only [val_main_v21_apply, val_main_v20_apply, val_main_v17_apply, val_main_v19_apply, val_main_v15_apply,
    val_main_v13_apply, val_main_v14_apply, val_main_v10_apply, val_main_v8_apply, val_main_v9_apply, val_main_v5_apply,
    val_main_v7_apply, val_main_v12_apply, val_main_v4_apply, val_main_v6_apply, val_main_v11_apply, val_main_v16_apply,
    val_main_v18_apply, val_main_c_apply, val_main_c_0_apply]

/-- The gather of any padded sequence `A` over the table is `windows A`. -/
theorem gather_eq (A : Vec F S16x1031x64 .f32) :
    Host.gather gather_S16x1031x64_S1017x8x8x1_S16x1017x8x8x64_04_1_n_n_1_3_16164 A (val_main_v21 (F := F)) = windows A := by
  funext i
  have i1 : (i 1).val < 1017 := (i 1).isLt
  have i2 : (i 2).val < 8 := (i 2).isLt
  have i3 : (i 3).val < 8 := (i 3).isLt
  obtain ⟨c0, c1, c2⟩ := operand_coords (val_main_v21 (F := F)) i
  rw [table_apply] at c1
  have hrow := start_toNat (tableIdx i 0).val (tableIdx i 1).val (tableIdx i 2).val i1 i2 i3
  unfold Host.gather windows
  congr 1
  funext a
  apply Fin.ext
  match a with
  | ⟨0, _⟩ => show (gd.operandIdx i _ 0).val = (i 0).val; rw [c0]; omega
  | ⟨1, _⟩ =>
    show (gd.operandIdx i _ 1).val = (i 1).val + (i 2).val + (i 3).val
    rw [c1, hrow]
    show min ((i 1).val + (i 2).val + (i 3).val) (1031 - 1) + 0 + 0 = _
    omega
  | ⟨2, _⟩ => show (gd.operandIdx i _ 2).val = (i 4).val; rw [c2]; omega

end Cert.ReferenceIdeal.Gathered

end
-- ==== Proof.lean ====
/-
  The certificate of the sliding-window unfold: `out[b, j, m, p, d] = fix[b, j + m + p, d]`, where `fix` is the
  input sequence `x : [16, 1024, 64]` with seven copies of its first time step joined in front.

  Both programs build `fix` by the same four host operations.  The kernel then copies, per batch entry, 64
  shifted row ranges of `fix` into the 8 × 512 (sub-window × lane) layout of its output block and splits the
  lanes by a reshape afterwards; the reference gathers rows of `fix` at the integer table `j + m + p`.
  Nothing is computed on the values, so the two results are equal at every input, finite or not: each is
  `windows fix` (Proof/Spec.lean).  The kernel's side is Proof/Block.lean (one block) and Proof/KernelValue.lean
  (the array and the reshape), the reference's Proof/RefValue.lean.  The idealization rewrote nothing, so
  `preserves` is trivial; the two kernel frames are the generated ones, the reference's frame is its run.
-/
import proofs.«113390_j55_1_alg».proof.Defs
import proofs.«113390_j55_1_alg».proof.Proof.Gen.Kernel
import proofs.«113390_j55_1_alg».proof.Proof.Gen.Kernel.Skeleton
import proofs.«113390_j55_1_alg».proof.Proof.Gen.Kernel.Launch
import proofs.«113390_j55_1_alg».proof.Proof.Gen.Kernel.Points
import proofs.«113390_j55_1_alg».proof.Proof.Gen.Kernel.Frame
import proofs.«113390_j55_1_alg».proof.Proof.Gen.KernelIdeal
import proofs.«113390_j55_1_alg».proof.Proof.Gen.KernelIdeal.Skeleton
import proofs.«113390_j55_1_alg».proof.Proof.Gen.KernelIdeal.Launch
import proofs.«113390_j55_1_alg».proof.Proof.Gen.KernelIdeal.Points
import proofs.«113390_j55_1_alg».proof.Proof.Gen.KernelIdeal.Frame
import proofs.«113390_j55_1_alg».proof.Proof.Gen.ReferenceIdeal
import proofs.«113390_j55_1_alg».proof.Proof.Gen.Pre_finite_inputs
import proofs.«113390_j55_1_alg».proof.Proof.Gen.ReferenceIdeal.Run
import proofs.«113390_j55_1_alg».proof.Proof.Gen.ReferenceIdeal.Read
import proofs.«113390_j55_1_alg».proof.Proof.KernelValue
import proofs.«113390_j55_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_r : Cert.frame_ReferenceIdeal := fun m ρ _ =>
  (θ_run Cert.ReferenceIdeal.defs _ _).mono (fun _ h c => (h c).2) (Cert.ReferenceIdeal.Value.run (F := Ideal) m ρ)

/-- Both results are `windows` of the padded sequence, and the two padded sequences are the same four host
    operations of arguments that agree. -/
theorem algebraic : Cert.algebraic_KernelIdeal_ReferenceIdeal := by
  intro m ρ m' ρ' _ hagree
  refine ⟨fun c => Cert.Unfold.windows (Cert.KernelIdeal.Unfolded.padded m c),
    Cert.KernelIdeal.Unfolded.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  unfold Cert.ReferenceIdeal.Read.val_main_v22
  rw [Cert.ReferenceIdeal.Gathered.gather_eq, hagree c]
  show Cert.Unfold.windows _ = Cert.Unfold.windows (Cert.KernelIdeal.Unfolded.padded m c)
  rw [Cert.KernelIdeal.Unfolded.padded_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
